-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x2048 : Shape := ⟨2, ![4096, 2048]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : IVec S4096x2048 32) (main_arg2 : FVec F S4096 .f32) (main_arg3 : FVec F S4096 .f32) (main_arg4 : IVec S4096 32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x4096x4096 : Shape := ⟨3, ![4, 4096, 4096]⟩
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x4096 : Shape := ⟨2, ![1, 4096]⟩
abbrev S16384x4096 : Shape := ⟨2, ![16384, 4096]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 41
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x2048, .i32⟩
  | .hbm, ⟨2, _⟩ => ⟨S4096, .f32⟩
  | .hbm, ⟨3, _⟩ => ⟨S4096, .f32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096x2048, .i32⟩
  | .hbm, ⟨14, _⟩ => ⟨S_, .i32⟩
  | .hbm, ⟨15, _⟩ => ⟨S4096x2048, .i32⟩
  | .hbm, ⟨16, _⟩ => ⟨S4096x2048, .i32⟩
  | .hbm, ⟨17, _⟩ => ⟨S_, .i32⟩
  | .hbm, ⟨18, _⟩ => ⟨S4096x2048, .i32⟩
  | .hbm, ⟨19, _⟩ => ⟨S4096x2048, .i32⟩
  | .hbm, ⟨20, _⟩ => ⟨S_, .i32⟩
  | .hbm, ⟨21, _⟩ => ⟨S4096x2048, .i32⟩
  | .hbm, ⟨22, _⟩ => ⟨S4096x2048, .i32⟩
  | .hbm, ⟨23, _⟩ => ⟨S4096x2048x1, .i32⟩
  | .hbm, ⟨24, _⟩ => ⟨S4096x2048x1, .i32⟩
  | .hbm, ⟨25, _⟩ => ⟨S4096x2048x2, .i32⟩
  | .hbm, ⟨26, _⟩ => ⟨S4096x4096, .i32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S1x4096, .f32⟩
  | .hbm, ⟨35, _⟩ => ⟨S4096x4096, .f32⟩
  | .hbm, ⟨36, _⟩ => ⟨S4096x4096, .f32⟩
  | .hbm, ⟨37, _⟩ => ⟨S4096x4096, .bf16⟩
  | .hbm, ⟨38, _⟩ => ⟨S16384x4096, .f32⟩
  | .hbm, ⟨39, _⟩ => ⟨S16384x4096, .f32⟩
  | .hbm, ⟨40, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bitsLt_bf16_f32 : FTy.bits .bf16 < FTy.bits .f32
  shapeCasts_S4x4096x4096_S16384x4096 : S4x4096x4096.ShapeCasts S16384x4096
  inb_S1024x2048_S1024x2048_0_0 : ∀ a, (![0, 0] : Fin 2 → Nat) a + S1024x2048.size a ≤ S1024x2048.size a
  h_S1024x2048 : 0 < S1024x2048.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S1024x2048_S1024x2048 : S1024x2048.ShapeCasts S1024x2048
  shapeCasts_S16384x4096_S4x4096x4096 : S16384x4096.ShapeCasts S4x4096x4096
  gather_S4096x2048_S4096x1_S4096x2048_1_0_n_n_0_1_12048_wf : GatherDims.WF S4096x2048 S4096x1 S4096x2048 [1] [0] [] [0] [] 1 ![1, 2048]
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x4096.size a
  hwx0_2 : ∀ i : grid0.Coords, EltTy.bits .f32 = 32 ∨ (Rect.block (s := S16384x4096) S1024x2048.size (cc0_transform_2 i) (hinb0_2 i)).WholeWords (EltTy.packing .f32)

variable [Facts₀]

def gather_S4096x2048_S4096x1_S4096x2048_1_0_n_n_0_1_12048 : GatherDims S4096x2048 S4096x1 S4096x2048 where
  offsetDims := [1]
  collapsedSliceDims := [0]
  operandBatchingDims := []
  startIndicesBatchingDims := []
  startIndexMap := [0]
  indexVectorDim := 1
  sliceSizes := ![1, 2048]
  wf := gather_S4096x2048_S4096x1_S4096x2048_1_0_n_n_0_1_12048_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v27) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x2048 : Shape := ⟨2, ![4096, 2048]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x4096 : Shape := ⟨2, ![1, 4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x2048, .i32⟩
  | .hbm, ⟨2, _⟩ => ⟨S4096, .f32⟩
  | .hbm, ⟨3, _⟩ => ⟨S4096, .f32⟩
  | .hbm, ⟨4, _⟩ => ⟨S4096, .i32⟩
  | .hbm, ⟨5, _⟩ => ⟨S_, .i32⟩
  | .hbm, ⟨6, _⟩ => ⟨S4096x2048, .i32⟩
  | .hbm, ⟨7, _⟩ => ⟨S4096x2048, .i32⟩
  | .hbm, ⟨8, _⟩ => ⟨S_, .i32⟩
  | .hbm, ⟨9, _⟩ => ⟨S4096x2048, .i32⟩
  | .hbm, ⟨10, _⟩ => ⟨S4096x2048, .i32⟩
  | .hbm, ⟨11, _⟩ => ⟨S_, .i32⟩
  | .hbm, ⟨12, _⟩ => ⟨S4096x2048, .i32⟩
  | .hbm, ⟨13, _⟩ => ⟨S4096x2048, .i32⟩
  | .hbm, ⟨14, _⟩ => ⟨S4096x2048x1, .i32⟩
  | .hbm, ⟨15, _⟩ => ⟨S4096x2048x1, .i32⟩
  | .hbm, ⟨16, _⟩ => ⟨S4096x2048x2, .i32⟩
  | .hbm, ⟨17, _⟩ => ⟨S4096x4096, .i32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S1x4096, .f32⟩
  | .hbm, ⟨26, _⟩ => ⟨S4096x4096, .f32⟩
  | .hbm, ⟨27, _⟩ => ⟨S4096x4096, .f32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S4096x1, .i32⟩
  | .hbm, ⟨36, _⟩ => ⟨S4096x4096, .f32⟩
  | .hbm, ⟨37, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096 : S_.BroadcastsInDim S4096 (![] : Fin 0 → Fin S4096.rank)
  bcast_S4096_S4096x1_0 : S4096.BroadcastsInDim S4096x1 (![0] : Fin 1 → Fin S4096x1.rank)
  gather_S4096x4096_S4096x1_S4096x4096_1_0_n_n_0_1_14096_wf : GatherDims.WF S4096x4096 S4096x1 S4096x4096 [1] [0] [] [0] [] 1 ![1, 4096]
  dot_S4x4096x4096_S4096x4096_S4x4096x4096_2_1_01_0_n_n_wf : DotDims.WF S4x4096x4096 S4096x4096 S4x4096x4096 [2] [1] [0, 1] [0] [] []

variable [Facts₀]

def gather_S4096x4096_S4096x1_S4096x4096_1_0_n_n_0_1_14096 : GatherDims S4096x4096 S4096x1 S4096x4096 where
  offsetDims := [1]
  collapsedSliceDims := [0]
  operandBatchingDims := []
  startIndicesBatchingDims := []
  startIndexMap := [0]
  indexVectorDim := 1
  sliceSizes := ![1, 4096]
  wf := gather_S4096x4096_S4096x1_S4096x4096_1_0_n_n_0_1_14096_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.KernelFold.lean ====
/-
  What the matmul body leaves in its output block, point by point.

  The grid is (16, 2, 4): the last axis walks the contraction in four runs of 1024, and the output block (1024 rows of
  x by 2048 rows of W) stays in place over those four points. At the first of the four the body stores zeros and then
  adds the point's block product to them; at each later one it adds the point's block product to what the point before
  left. So after point `4u + j` the block holds the fold of "add this point's block product" over the points
  `4u … 4u + j`, started from zeros: stated here over the body's own stored terms, for any float instance.
-/
import proofs.«404074_j41085657154123_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Fold

open Cert.KernelIdeal Cert.KernelIdeal.Gen

variable {F : FTy → Type} [FloatOps F]
variable (m : (ℓ : Loc nD τ sig) → Buf (Elt F) ℓ)

theorem hz : (![0, 0] : Fin 2 → Nat) = fun _ => 0 := funext fun a => by fin_cases a <;> rfl

/-- A later point of a run: the block ends at the sum of what it held and the point's block product (the body's one
    covering store, whose three loads read the whole staging buffers). -/
theorem out_later (c : Dev nD) (i : grid0.Coords) (a3 : Memref sig .tc .vmem S1024x1024 .f32) (h3 : a3.IsWhole)
    (a4 : Memref sig .tc .vmem S2048x1024 .bf16) (h4 : a4.IsWhole) (a5 : Memref sig .tc .vmem S1024x2048 .f32) (h5 : a5.IsWhole)
    (hc : ¬cond0_0 i) (x0 : Vec F S1024x1024 .f32) (x1 : Vec F S2048x1024 .bf16) (xo : Vec F S1024x2048 .f32) :
    out0_B_2 c i a3 h3 a4 h4 a5 h5 hc x0 x1 xo = k0_pay2 x0 x1 xo := by
  unfold out0_B_2
  rw [View.read_writes_eq_canon _ _ _ (cover0_B_2 c i a3 h3 a4 h4 a5 h5 hc x0 x1 xo)]
  unfold kernelRun0_B
  dsimp only
  sl_unfold_words
  rw [View.canon_unit_zero hz]
  simp only [View.readAt_eq_ld, h3.read_unread, h4.read_unread, h5.read_unread, View.ld_unit_zero (S := S1024x1024) hz,
    View.ld_unit_zero (S := S2048x1024) hz, View.ld_unit_zero (S := S1024x2048) hz]

/-- The first point of a run: the body stores the zero block, reads it back, and leaves zero plus the point's block
    product (two covering stores, the later one over the earlier one read back). -/
theorem out_first (c : Dev nD) (i : grid0.Coords) (a3 : Memref sig .tc .vmem S1024x1024 .f32) (h3 : a3.IsWhole)
    (a4 : Memref sig .tc .vmem S2048x1024 .bf16) (h4 : a4.IsWhole) (a5 : Memref sig .tc .vmem S1024x2048 .f32) (h5 : a5.IsWhole)
    (hc : cond0_0 i) (x0 : Vec F S1024x1024 .f32) (x1 : Vec F S2048x1024 .bf16) :
    out0_A_2 c i a3 h3 a4 h4 a5 h5 hc x0 x1 = k0_pay2 x0 x1 (k0_pay1 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1024x2048) hz]
  simp only [View.readAt_eq_ld, h3.read_unread, h4.read_unread, View.ld_unit_zero (S := S1024x1024) hz,
    View.ld_unit_zero (S := S2048x1024) hz, View.readCov_unit_zero (S := S1024x2048) _ hz]

/-- The block of x (1024 × 1024) and the block of W (2048 × 1024) the pipeline hands the body at point `t`, at their
    literal vector types. -/
abbrev xblk (c : Dev nD) (t : Fin cfg0.N) : Vec F S1024x1024 .f32 := iblk m c 0 t
abbrev wblk (c : Dev nD) (t : Fin cfg0.N) : Vec F S2048x1024 .bf16 := iblk m c 1 t

/-- What a run's first point leaves: the body's sum over the zero block. -/
def first (c : Dev nD) (n : ℕ) (h : n < cfg0.N) : Vec F S1024x2048 .f32 :=
  k0_pay2 (xblk m c ⟨n, h⟩) (wblk m c ⟨n, h⟩) (k0_pay1 (F := F))

/-- What a later point leaves over what the point before left. -/
def later (c : Dev nD) (n : ℕ) (h : n < cfg0.N) (acc : Vec F S1024x2048 .f32) : Vec F S1024x2048 .f32 :=
  k0_pay2 (xblk m c ⟨n, h⟩) (wblk m c ⟨n, h⟩) acc

/-- After point `t` the output block holds the fold over the points of `t`'s run up to `t`: the run starts at
    `4 · (t / 4)`, and `t` is its point number `t % 4`. -/
theorem outsAt_fold (c : Dev nD) (t : ℕ) (ht : t < cfg0.N) (h' : 4 * (t / 4) + t % 4 < cfg0.N) :
    outsAt0 m c t ht = Pipeline.accAt (first m c) (later m c) (4 * (t / 4)) (t % 4) h' :=
  Pipeline.eq_accAt_of_mod (outsAt0 m c) 4 (first m c) (later m c)
    (fun n h h0 => (outsAt0_A m c ⟨n, h⟩ h0).trans (out_first c _ _ _ _ _ _ _ _ _ _))
    (fun n h hne => (outsAt0_B m c ⟨n + 1, h⟩ hne).trans (out_later c _ _ _ _ _ _ _ _ _ _ _))
    (by decide) t ht h'

end Cert.KernelIdeal.Fold

end
-- ==== Proof.KernelBlock.lean ====
/-
  The body's stored value at an index, over the exact values.

  The body multiplies its block of x (1024 × 1024, rounded to the shorter float format, which at the exact values
  changes nothing) by the transpose of its block of W (2048 × 1024), contracting the 1024 columns, into a zero
  accumulator, and adds the product to what the output block held. At entry `(p, q)` of the 1024 × 2048 output block
  that is: what the block held there, plus the sum over `j < 1024` of `x[p, j] · W[q, j]`. The zero block is `0`.
-/
import proofs.«404074_j41085657154123_3_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Block

open Cert.KernelIdeal Cert.KernelIdeal.Gen

/-- The product's left operand is read at the output's row, -/
theorem lhs_row (i : S1024x2048.Idx) (q : dot_S1024x1024_S2048x1024_S1024x2048_1_1_0_0_n_n.contr.Idx) :
    (dot_S1024x1024_S2048x1024_S1024x2048_1_1_0_0_n_n.lhsIdx i q 0).val = (i 0).val := by
  unfold DotDims.lhsIdx
  rw [dif_neg (show ¬(0 : Fin S1024x1024.rank) ∈ dot_S1024x1024_S2048x1024_S1024x2048_1_1_0_0_n_n.lhsBatch by decide), dif_pos (show (0 : Fin S1024x1024.rank) ∈ dot_S1024x1024_S2048x1024_S1024x2048_1_1_0_0_n_n.lhsNonContracting by decide)]
  rfl
/-- at the contracted column; -/
theorem lhs_col (i : S1024x2048.Idx) (q : dot_S1024x1024_S2048x1024_S1024x2048_1_1_0_0_n_n.contr.Idx) :
    (dot_S1024x1024_S2048x1024_S1024x2048_1_1_0_0_n_n.lhsIdx i q 1).val = (q ⟨0, by decide⟩).val :=
  dot_S1024x1024_S2048x1024_S1024x2048_1_1_0_0_n_n.lhsIdx_val_of_single rfl i q
/-- the right operand at the output's column, as its row, -/
theorem rhs_row (i : S1024x2048.Idx) (q : dot_S1024x1024_S2048x1024_S1024x2048_1_1_0_0_n_n.contr.Idx) :
    (dot_S1024x1024_S2048x1024_S1024x2048_1_1_0_0_n_n.rhsIdx i q 0).val = (i 1).val := by
  unfold DotDims.rhsIdx
  rw [dif_neg (show ¬(0 : Fin S2048x1024.rank) ∈ dot_S1024x1024_S2048x1024_S1024x2048_1_1_0_0_n_n.rhsBatch by decide), dif_pos (show (0 : Fin S2048x1024.rank) ∈ dot_S1024x1024_S2048x1024_S1024x2048_1_1_0_0_n_n.rhsNonContracting by decide)]
  rfl
/-- at the contracted column. -/
theorem rhs_col (i : S1024x2048.Idx) (q : dot_S1024x1024_S2048x1024_S1024x2048_1_1_0_0_n_n.contr.Idx) :
    (dot_S1024x1024_S2048x1024_S1024x2048_1_1_0_0_n_n.rhsIdx i q 1).val = (q ⟨0, by decide⟩).val :=
  dot_S1024x1024_S2048x1024_S1024x2048_1_1_0_0_n_n.rhsIdx_val_of_single rfl i q

/-- The zero block is zero everywhere. -/
theorem zero_apply (i : S1024x2048.Idx) : k0_pay1 (F := Ideal) i = 0 := by
  unfold k0_pay1
  show Ideal.ofBits .f32 0x00000000#32 = 0
  exact Ideal.ofBits_zero_f32

/-- THE BODY'S SUM AT AN ENTRY: what the block held plus the row-by-row product over the 1024 contracted columns. -/
theorem sum_apply (x0 : FVec Ideal S1024x1024 .f32) (x1 : FVec Ideal S2048x1024 .bf16) (acc : FVec Ideal S1024x2048 .f32)
    (p : Fin 1024) (q : Fin 2048) :
    k0_pay2 (F := Ideal) x0 x1 acc (ix2 p q) = acc (ix2 p q) + ∑ j : Fin 1024, x0 (ix2 p j) * x1 (ix2 q j) := by
  unfold k0_pay2
  simp only [shapeCast_self]
  show acc (ix2 p q) + _ = _
  congr 1
  simp only [matmul]
  rw [Ideal.matmul_constant_zero_apply, ← Equiv.sum_comp (contrEquiv1 dot_S1024x1024_S2048x1024_S1024x2048_1_1_0_0_n_n 1024 rfl rfl).symm]
  refine Finset.sum_congr rfl fun k _ => ?_
  have hk := contrEquiv1_symm_val dot_S1024x1024_S2048x1024_S1024x2048_1_1_0_0_n_n 1024 rfl rfl k
  have el : dot_S1024x1024_S2048x1024_S1024x2048_1_1_0_0_n_n.lhsIdx (ix2 p q) ((contrEquiv1 dot_S1024x1024_S2048x1024_S1024x2048_1_1_0_0_n_n 1024 rfl rfl).symm k) = ix2 p k := funext fun a => Fin.ext (by
    match a with
    | ⟨0, _⟩ => exact lhs_row _ _
    | ⟨1, _⟩ => exact (lhs_col _ _).trans hk)
  have er : dot_S1024x1024_S2048x1024_S1024x2048_1_1_0_0_n_n.rhsIdx (ix2 p q) ((contrEquiv1 dot_S1024x1024_S2048x1024_S1024x2048_1_1_0_0_n_n 1024 rfl rfl).symm k) = ix2 q k := funext fun a => Fin.ext (by
    match a with
    | ⟨0, _⟩ => exact rhs_row _ _
    | ⟨1, _⟩ => exact (rhs_col _ _).trans hk)
  rw [el, er]
  rfl

end Cert.KernelIdeal.Block

end
-- ==== Proof.SumRuns.lean ====
/-
  A sum over 4096 consecutive positions taken as four runs of 1024.

  The contraction axis of the product x · Wᵀ has 4096 positions. Summed in one go, or as the run 0 … 1023, then
  1024 … 2047, and so on, each run added to what the runs before it gave, the result is the same: addition on the
  extended reals is commutative and associative (no finiteness is needed, since no term is cancelled or distributed),
  and every position `k` is `1024 · s + r` for exactly one run `s < 4` and one place `r < 1024` in it.
-/
import Mathlib.Algebra.BigOperators.Fin
import Mathlib.Data.EReal.Basic
import Mathlib.Logic.Equiv.Fin.Basic

namespace Cert.Linear

/-- Position `r` of run `s` (the run taken modulo 4, so that the position is in range for every natural `s`). -/
def pos (s : Nat) (r : Fin 1024) : Fin 4096 := ⟨(s % 4) * 1024 + r.val, by have := r.isLt; omega⟩

theorem pos_val (s : Nat) (r : Fin 1024) : (pos s r).val = (s % 4) * 1024 + r.val := rfl

/-- The whole sum is the sum of the four runs' sums. -/
theorem sum_eq_sum_runs {M : Type} [AddCommMonoid M] (f : Fin 4096 → M) :
    ∑ k : Fin 4096, f k = ∑ s ∈ Finset.range 4, ∑ r : Fin 1024, f (pos s r) := by
  rw [Finset.sum_range (fun s => ∑ r : Fin 1024, f (pos s r))]
  rw [← Equiv.sum_comp (finProdFinEquiv (m := 4) (n := 1024)) f, Fintype.sum_prod_type]
  refine Finset.sum_congr rfl fun s _ => Finset.sum_congr rfl fun r _ => congrArg f (Fin.ext ?_)
  have hs := s.isLt
  show r.val + 1024 * s.val = (s.val % 4) * 1024 + r.val
  omega

end Cert.Linear
-- ==== Proof.KernelArray.lean ====
/-
  The product array after the region: out[r, o] = Σ_k x[r, k] · W[o, k], over the exact values.

  Point `t` of the (16, 2, 4) grid works on rows `1024 · (t / 8) …` of x, rows `2048 · (t / 4 % 2) …` of W, and the run
  `t % 4` of the 4096 contracted columns. The output block of a run of four points is written back after the fourth,
  when it holds zero plus the four runs' products added in order: the whole contraction (a sum of 4096 terms is the sum
  of its four runs of 1024, whatever the values). The thirty-two output blocks tile the 16384 × 4096 array.
-/
import proofs.«404074_j41085657154123_3_alg».proof.Proof.KernelFold
import proofs.«404074_j41085657154123_3_alg».proof.Proof.KernelBlock
import proofs.«404074_j41085657154123_3_alg».proof.Proof.SumRuns

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Fold Cert.Linear

/-- x · Wᵀ with x of 16384 rows and W of 4096 rows, both of 4096 columns. -/
def linear (X : FVec Ideal S16384x4096 .f32) (W : FVec Ideal S4096x4096 .bf16) : FVec Ideal S16384x4096 .f32 :=
  fun i => ∑ k : Fin 4096, X (ix2 (i 0) k) * W (ix2 (i 1) k)

variable (m : (ℓ : Loc nD τ sig) → Buf (Elt Ideal) ℓ)

/-- The two operands as the region finds them. -/
abbrev xarr (c : Dev nD) : FVec Ideal S16384x4096 .f32 := V m c main_v27
abbrev warr (c : Dev nD) : FVec Ideal S4096x4096 .bf16 := V m c main_v26

/-- The row of x that row `p` of point `t`'s block is, and the row of W that its row `q` of W's block is. -/
def xrow (t : ℕ) (p : Fin 1024) : Fin 16384 := ⟨t / 8 % 16 * 1024 + p.val, by have := p.isLt; omega⟩
def wrow (t : ℕ) (q : Fin 2048) : Fin 4096 := ⟨t / 4 % 2 * 2048 + q.val, by have := q.isLt; omega⟩

/-- The printed index maps over the grid: x's block follows axes 0 and 2, W's axes 1 and 2, the output's axes 0 and 1. -/
theorem idx_facts : ∀ t : Fin cfg0.N, win0_0.index t (0 : Fin 2) = t.val / 8 ∧ win0_0.index t (1 : Fin 2) = t.val % 4
    ∧ win0_1.index t (0 : Fin 2) = t.val / 4 % 2 ∧ win0_1.index t (1 : Fin 2) = t.val % 4
    ∧ win0_2.index t (0 : Fin 2) = t.val / 8 ∧ win0_2.index t (1 : Fin 2) = t.val / 4 % 2 :=
  (by decide +kernel : ∀ t : Fin grid0.N, _)

theorem lt_N (t : Fin cfg0.N) : t.val < 128 := lt_of_lt_of_eq t.isLt N_0

/-- Point `t`'s block of x read at `(p, j)`. -/
theorem xblk_apply (c : Dev nD) (t : Fin cfg0.N) (p j : Fin 1024) :
    xblk m c t (ix2 p j) = xarr m c (ix2 (xrow t.val p) (pos t.val j)) := by
  obtain ⟨e0, e1, -⟩ := idx_facts t
  have hN := lt_N t
  unfold xblk iblk
  rw [View.read_apply]
  show V m c main_v27 _ = V m c main_v27 _
  congr 1
  funext a
  apply Fin.ext
  match a with
  | ⟨0, _⟩ => show win0_0.index t (0 : Fin 2) * 1024 + 1 * p.val = t.val / 8 % 16 * 1024 + p.val; rw [e0]; omega
  | ⟨1, _⟩ => show win0_0.index t (1 : Fin 2) * 1024 + 1 * j.val = t.val % 4 * 1024 + j.val; rw [e1]; omega

/-- Point `t`'s block of W read at `(q, j)`. -/
theorem wblk_apply (c : Dev nD) (t : Fin cfg0.N) (q : Fin 2048) (j : Fin 1024) :
    wblk m c t (ix2 q j) = warr m c (ix2 (wrow t.val q) (pos t.val j)) := by
  obtain ⟨-, -, e0, e1, -⟩ := idx_facts t
  have hN := lt_N t
  unfold wblk iblk
  rw [View.read_apply]
  show V m c main_v26 _ = V m c main_v26 _
  congr 1
  funext a
  apply Fin.ext
  match a with
  | ⟨0, _⟩ => show win0_1.index t (0 : Fin 2) * 2048 + 1 * q.val = t.val / 4 % 2 * 2048 + q.val; rw [e0]; omega
  | ⟨1, _⟩ => show win0_1.index t (1 : Fin 2) * 1024 + 1 * j.val = t.val % 4 * 1024 + j.val; rw [e1]; omega

/-- What point `n` adds at entry `i` of the output block: its run's part of the contraction. -/
def part (c : Dev nD) (n : ℕ) (p : Fin 1024) (q : Fin 2048) : EReal :=
  ∑ j : Fin 1024, xarr m c (ix2 (xrow n p) (pos n j)) * warr m c (ix2 (wrow n q) (pos n j))

/-- The body at point `t` adds the point's part to what the block held. -/
theorem point_sum (c : Dev nD) (t : Fin cfg0.N) (acc : FVec Ideal S1024x2048 .f32) (i : S1024x2048.Idx) :
    k0_pay2 (F := Ideal) (xblk m c t) (wblk m c t) acc i = acc i + part m c t.val (i 0) (i 1) := by
  obtain ⟨p, q, rfl⟩ : ∃ (p : Fin 1024) (q : Fin 2048), i = ix2 p q := ⟨i 0, i 1, eq_ix2 i⟩
  rw [Block.sum_apply]
  exact congrArg (acc (ix2 p q) + ·) (Finset.sum_congr rfl fun j _ =>
    congrArg₂ (· * ·) (xblk_apply m c t p j) (wblk_apply m c t q j))

/-- After the last point of a run the block holds the whole contraction. -/
theorem block_at_flush (c : Dev nD) (t : Fin cfg0.N) (h3 : t.val % 4 = 3) (i : S1024x2048.Idx) :
    outsAt0 m c t.val t.isLt i
      = ∑ k : Fin 4096, xarr m c (ix2 (xrow t.val (i 0)) k) * warr m c (ix2 (wrow t.val (i 1)) k) := by
  have hN := lt_N t
  have h' : 4 * (t.val / 4) + t.val % 4 < cfg0.N := by rw [Nat.div_add_mod]; exact t.isLt
  rw [outsAt_fold m c t.val t.isLt h']
  have hfold := Pipeline.accAt_add_apply (ι := S1024x2048.Idx) (β := EReal) (first m c) (later m c) (fun _ => 0) (fun n i => part m c n (i 0) (i 1))
    (4 * (t.val / 4)) 3
    (fun h i => (point_sum m c ⟨_, h⟩ _ i).trans (by rw [Block.zero_apply]))
    (fun n h acc i _ _ => point_sum m c ⟨n, h⟩ acc i)
    (t.val % 4) (by omega) h' i
  rw [hfold, zero_add, h3, sum_eq_sum_runs]
  refine Finset.sum_congr rfl fun s hs => ?_
  have hs4 : s < 4 := Finset.mem_range.mp hs
  show part m c (4 * (t.val / 4) + s) (i 0) (i 1) = _
  unfold part
  refine Finset.sum_congr rfl fun j _ => ?_
  have ex : xrow (4 * (t.val / 4) + s) (i 0) = xrow t.val (i 0) := Fin.ext (by show (4 * (t.val / 4) + s) / 8 % 16 * 1024 + _ = t.val / 8 % 16 * 1024 + _; omega)
  have ew : wrow (4 * (t.val / 4) + s) (i 1) = wrow t.val (i 1) := Fin.ext (by show (4 * (t.val / 4) + s) / 4 % 2 * 2048 + _ = t.val / 4 % 2 * 2048 + _; omega)
  have ep : pos (4 * (t.val / 4) + s) j = pos s j := Fin.ext (by show (4 * (t.val / 4) + s) % 4 * 1024 + _ = s % 4 * 1024 + _; omega)
  rw [ex, ew, ep]

/-- The product array, of the operands as the region finds them. -/
abbrev product (c : Dev nD) : Buf (Elt Ideal) ((c : Thread nD τ).loc main_v28) := linear (xarr m c) (warr m c)

/-- What a run's last point writes back is its block of the product array. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  have hN := lt_N t
  obtain ⟨-, -, -, -, e0, e1⟩ := idx_facts t
  show (cfg0.win 2).cut (grid0.coords t) ((dats m 0 c).after 2 t) = _
  rw [after0_2]
  funext y
  show outsAt0 m c t.val t.isLt y = linear (xarr m c) (warr m c) (((cfg0.win 2).blk t).view.emb y)
  rw [block_at_flush m c t h3 y]
  unfold linear
  have r0 : (((cfg0.win 2).blk t).view.emb y) 0 = xrow t.val (y 0) := Fin.ext (by
    show win0_2.index t (0 : Fin 2) * 1024 + 1 * (y 0).val = t.val / 8 % 16 * 1024 + (y 0).val; rw [e0]; omega)
  have r1 : (((cfg0.win 2).blk t).view.emb y) 1 = wrow t.val (y 1) := Fin.ext (by
    show win0_2.index t (1 : Fin 2) * 2048 + 1 * (y 1).val = t.val / 4 % 2 * 2048 + (y 1).val; rw [e1]; omega)
  rw [r0, r1]

/-- An index of the array is in point `t`'s block iff each coordinate is in the block's range on its axis. -/
theorem mem_blk (t : Fin cfg0.N) (i : S16384x4096.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v28).slice (win0_2.rect t)).set ↔ _
  rw [View.set_slice_whole, Rect.mem_set_unit]
  exact Iff.rfl

/-- Every entry of the array is in the block some run's last point writes back. -/
theorem cover (i : S16384x4096.Idx) : ∃ t : Fin cfg0.N, (cfg0.win 2).flush t = true ∧ i ∈ ((cfg0.win 2).blk t).view.set := by
  have h0 : (i 0).val < 16384 := (i 0).isLt
  have h1 : (i 1).val < 4096 := (i 1).isLt
  have hlt : ((i 0).val / 1024 * 2 + (i 1).val / 2048) * 4 + 3 < cfg0.N := by rw [show cfg0.N = 128 from N_0]; omega
  refine ⟨⟨_, hlt⟩, (flush0_2 _).mpr (by show (((i 0).val / 1024 * 2 + (i 1).val / 2048) * 4 + 3) % 4 = 3; omega), ?_⟩
  obtain ⟨-, -, -, -, e0, e1⟩ := idx_facts ⟨_, hlt⟩
  rw [mem_blk]
  intro a
  match a with
  | ⟨0, _⟩ =>
    show win0_2.index ⟨_, hlt⟩ (0 : Fin 2) * 1024 ≤ (i 0).val ∧ (i 0).val < win0_2.index ⟨_, hlt⟩ (0 : Fin 2) * 1024 + 1024
    rw [e0]; dsimp only; omega
  | ⟨1, _⟩ =>
    show win0_2.index ⟨_, hlt⟩ (1 : Fin 2) * 2048 ≤ (i 1).val ∧ (i 1).val < win0_2.index ⟨_, hlt⟩ (1 : Fin 2) * 2048 + 2048
    rw [e1]; dsimp only; omega

/-- THE ARRAY AFTER THE REGION is the product array. -/
theorem final (c : Dev nD) : (dats m 0 c).arrAt 2 cfg0.N = product m c :=
  (dats m 0 c).arrAt_eq_of_cover 2 (product m c) (flushed_eq m c) cover

end Cert.KernelIdeal.Arr

end
-- ==== Proof.KernelRun.lean ====
/-
  The whole kernel program's run, read: what its result holds as one function of its arguments.

  Before the region the host reshapes x from [4, 4096, 4096] to [16384, 4096] and builds W: it looks up the rows of the
  packed table the (sign-normalised) row numbers name, unpacks and dequantizes them, and rounds to the shorter float
  format. After the region it reshapes the [16384, 4096] product back to [4, 4096, 4096]. The dequantizing steps are the
  reference's own steps applied to the looked-up packed rows, so W is stated through the reference's table function.
-/
import proofs.«404074_j41085657154123_3_alg».proof.Proof.KernelArray
import proofs.«404074_j41085657154123_3_alg».proof.Proof.Gen.ReferenceIdeal.Read
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Arr

variable (m : (ℓ : Loc nD τ sig) → Buf (Elt Ideal) ℓ) (ρ : Dev nD → PrngReg)

/-- The left operand the region finds: x with its two leading axes merged. -/
theorem xarr_eq (c : Dev nD) :
    xarr m c = shapeCast S16384x4096 (m ((c : Thread nD τ).loc main_arg0)) shapeCasts_S4x4096x4096_S16384x4096 := by
  show StableHlo.after hostOps0 (fun b => m (c, b)) (Proc.devRef .tc main_v27) = _
  after_results
  rfl

/-- W as a function of the arguments: the dequantized table of the looked-up packed rows, rounded (the identity here). -/
def weights (x1 : IVec S4096x2048 32) (x2 x3 : FVec Ideal S4096 .f32) (x4 : IVec S4096 32) : FVec Ideal S4096x4096 .bf16 :=
  truncf .bf16 (Cert.ReferenceIdeal.Read.val_main_v18 (F := Ideal)
    (Host.gather gather_S4096x2048_S4096x1_S4096x2048_1_0_n_n_0_1_12048 x1 (Cert.ReferenceIdeal.Read.val_main_v24 (F := Ideal) x4)) x2 x3)
    bitsLt_bf16_f32

set_option maxHeartbeats 2000000 in
/-- The right operand the region finds. -/
theorem warr_eq (c : Dev nD) :
    warr m c = weights (m ((c : Thread nD τ).loc main_arg1)) (m ((c : Thread nD τ).loc main_arg2))
      (m ((c : Thread nD τ).loc main_arg3)) (m ((c : Thread nD τ).loc main_arg4)) := by
  show StableHlo.after hostOps0 (fun b => m (c, b)) (Proc.devRef .tc main_v26) = _
  after_results_simp
  rfl

/-- The result as a function of the arguments. -/
def result (x0 : FVec Ideal S4x4096x4096 .f32) (x1 : IVec S4096x2048 32) (x2 x3 : FVec Ideal S4096 .f32) (x4 : IVec S4096 32) :
    FVec Ideal S4x4096x4096 .f32 :=
  shapeCast S4x4096x4096 (linear (shapeCast S16384x4096 x0 shapeCasts_S4x4096x4096_S16384x4096) (weights x1 x2 x3 x4))
    shapeCasts_S16384x4096_S4x4096x4096

/-- What the host's last line leaves in the result buffer. -/
theorem tail_eq (c : Dev nD) :
    Pipeline.afterTail₀ cfgs (dats m) 0 (V0 m) [hostOps1] c main_v29
      = result (m ((c : Thread nD τ).loc main_arg0)) (m ((c : Thread nD τ).loc main_arg1)) (m ((c : Thread nD τ).loc main_arg2))
          (m ((c : Thread nD τ).loc main_arg3)) (m ((c : Thread nD τ).loc main_arg4)) := by
  have e := (Pipeline.withArrays_arr spec0 launch0.win.arr_inj c (V0 m c) (fun w => (dats m 0 c).arrAt w cfg0.N) 2).trans (final m c)
  unfold Pipeline.afterTail₀
  show StableHlo.after hostOps1 _ (Proc.devRef .tc main_v29) = _
  after_results
  funext i
  show shapeCast S4x4096x4096 (Pipeline.withArrays spec0 c (V0 m c) (fun w => (dats m 0 c).arrAt w cfg0.N) (Proc.devRef .tc (Pipeline.arrRef spec0 2)))
    shapeCasts_S16384x4096_S4x4096x4096 i = _
  rw [e]
  show shapeCast S4x4096x4096 (linear (xarr m c) (warr m c)) shapeCasts_S16384x4096_S4x4096x4096 i = _
  rw [xarr_eq, warr_eq]
  rfl

/-- THE RUN, READ: the result buffer at `result` of the arguments, the arguments unchanged. -/
theorem run : θ_run defs (onTc (τ := τ) (main (F := Ideal))) ⟨m, fun _ => 0, ρ⟩ (fun r => ∀ c : Dev nD,
      r.2.mem ((c.tc : Thread nD τ).loc main_v29) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v29 (Pipeline.mem_restRefs_of main_v29 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.Table.lean ====
/-
  The dequantized weight table read at an index, and why it commutes with a row lookup.

  A packed word holds two 4-bit weights. Column `k` of the unpacked table takes the word in column `k / 2` of the
  same row: its bits 4 … 7 when `k` is even, its bits 0 … 3 when `k` is odd (the two nibbles are stacked on a new
  last axis of extent two and that axis is merged into the columns). The weight is then `w / 15 · range[k] + min[k]`,
  scale and offset depending on the COLUMN only. So entry `(r, k)` of the dequantized table depends on the packed
  table through the one word at `(r, k / 2)`, and looking rows up first and dequantizing afterwards gives the same
  table as dequantizing first and looking the same rows up afterwards: both read the word at (the looked-up row,
  `k / 2`). The lookup clamps its row into the table on both sides alike, so no range of the row numbers is needed.
-/
import proofs.«404074_j41085657154123_3_alg».proof.Proof.Gen.ReferenceIdeal.Read
import proofs.«404074_j41085657154123_3_alg».proof.Proof.LibIndexed
import Idealize.ShloMosaic.Lib.Pipeline.Value
import Idealize.ShloMosaic.Lib.ValueIdx

noncomputable section

namespace Cert.ReferenceIdeal.Table

open Cert.ReferenceIdeal Cert.ReferenceIdeal.Gen Cert.ReferenceIdeal.Read
open Idealize.ShloMosaic Idealize.ShloMosaic.ValueIdx

variable {F : FTy → Type} [FloatOps F]

/-- The 4-bit weight column `k` takes out of a packed word: the high nibble for an even column, the low one for an odd. -/
def nib (w : BitVec 32) (k : Fin 4096) : BitVec 32 :=
  if k.val % 2 = 0 then IntOp.andi (IntOp.shrsi .host w 4#32) 15#32 else IntOp.andi w 15#32

/-- The packed column that holds column `k`'s weight. -/
def half (k : Fin 4096) : Fin 2048 := ⟨k.val / 2, by have := k.isLt; omega⟩

/-- The unpacked integer table at `(r, k)`. -/
theorem unpacked_apply (T : IVec S4096x2048 32) (r k : Fin 4096) :
    val_main_v9 (F := F) T (ix2 r k) = nib (T (ix2 r (half k))) k := by
  have hr := r.isLt
  have hk := k.isLt
  rw [val_main_v9_apply]
  unfold val_main_v8
  by_cases hpar : k.val % 2 = 0
  · -- an even column: the first of the two stacked pieces
    rw [concatenate_pair_apply_left (s₁ := S4096x2048x1) (s₂ := S4096x2048x1) (2 : Fin 3) _ _ _ (idx_main_v9 (ix2 r k)) rfl (ix3 r (half k) (0 : Fin 1))
      (fun b => match b with
        | ⟨0, _⟩ => by show r.val = (r.val * 4096 + k.val) / 4096; omega
        | ⟨1, _⟩ => by show k.val / 2 = (r.val * 4096 + k.val) / 2 % 2048; omega
        | ⟨2, _⟩ => by show 0 = (r.val * 4096 + k.val) % 2; omega)]
    have e : idx_main_v6 (ix3 r (half k) (0 : Fin 1)) = ix2 r (half k) :=
      funext fun a => Fin.ext (by match a with | ⟨0, _⟩ => rfl | ⟨1, _⟩ => rfl)
    rw [val_main_v6_apply, e, val_main_v3_apply, val_main_v1_apply, val_main_v0_apply, val_main_c_apply,
      val_main_v2_apply, val_main_c_0_apply]
    unfold nib
    rw [if_pos hpar]
  · -- an odd column: the second piece
    rw [concatenate_pair_apply_right (s₁ := S4096x2048x1) (s₂ := S4096x2048x1) (2 : Fin 3) _ _ _ (idx_main_v9 (ix2 r k)) rfl rfl (ix3 r (half k) (0 : Fin 1))
      (fun b hb => match b, hb with
        | ⟨0, _⟩, _ => by show r.val = (r.val * 4096 + k.val) / 4096; omega
        | ⟨1, _⟩, _ => by show k.val / 2 = (r.val * 4096 + k.val) / 2 % 2048; omega
        | ⟨2, _⟩, hb => absurd rfl hb)
      (by show 0 + 1 = (r.val * 4096 + k.val) % 2; omega)]
    have e : idx_main_v7 (ix3 r (half k) (0 : Fin 1)) = ix2 r (half k) :=
      funext fun a => Fin.ext (by match a with | ⟨0, _⟩ => rfl | ⟨1, _⟩ => rfl)
    rw [val_main_v7_apply, e, val_main_v5_apply, val_main_v4_apply, val_main_c_1_apply]
    unfold nib
    rw [if_neg hpar]

/-- One dequantized weight: the nibble as a float, over fifteen, times the column's range, plus the column's minimum. -/
def deq (w : BitVec 32) (k : Fin 4096) (mins ranges : FVec F S4096 .f32) : F .f32 :=
  FloatOps.addf (FloatOps.mulf (FloatOps.hostDivf (FloatOps.sitofp .f32 (nib w k)) (FloatOps.ofBits .f32 0x41700000#32))
    (ranges (ix1 k))) (mins (ix1 k))

/-- The dequantized table at `(r, k)`: a function of the one packed word at `(r, k / 2)` and of the column. -/
theorem table_apply (T : IVec S4096x2048 32) (mins ranges : FVec F S4096 .f32) (r k : Fin 4096) :
    val_main_v18 (F := F) T mins ranges (ix2 r k) = deq (T (ix2 r (half k))) k mins ranges := by
  have e14 : idx_main_v13 (idx_main_v14 (ix2 r k)) = ix1 k :=
    funext fun a => Fin.ext (by match a with | ⟨0, _⟩ => rfl)
  have e17 : idx_main_v16 (idx_main_v17 (ix2 r k)) = ix1 k :=
    funext fun a => Fin.ext (by match a with | ⟨0, _⟩ => rfl)
  rw [val_main_v18_apply, val_main_v15_apply, val_main_v12_apply, val_main_v10_apply, unpacked_apply,
    val_main_v11_apply, val_main_cst_apply, val_main_v14_apply, val_main_v13_apply, e14,
    val_main_v17_apply, val_main_v16_apply, e17]
  rfl

/-- LOOKUP THEN DEQUANTIZE IS DEQUANTIZE THEN LOOKUP: for any row lookup of the packed table (its dimension numbers
    the ones a row lookup has) and the same lookup of the dequantized table. -/
theorem table_gather (dK : GatherDims S4096x2048 S4096x1 S4096x2048)
    (wfK : GatherDims.WF S4096x2048 S4096x1 S4096x2048 [1] [0] [] [0] [] 1 ![1, 2048])
    (hdK : dK = { offsetDims := [1], collapsedSliceDims := [0], operandBatchingDims := [], startIndicesBatchingDims := [], startIndexMap := [0], indexVectorDim := 1, sliceSizes := ![1, 2048], wf := wfK })
    (T : IVec S4096x2048 32) (mins ranges : FVec F S4096 .f32) (idx : IVec S4096x1 32) :
    val_main_v18 (F := F) (Host.gather dK T idx) mins ranges
      = Host.gather gather_S4096x4096_S4096x1_S4096x4096_1_0_n_n_0_1_14096 (val_main_v18 (F := F) T mins ranges) idx := by
  funext i
  obtain ⟨r, k, rfl⟩ : ∃ (r k : Fin 4096), i = ix2 r k := ⟨i 0, i 1, eq_ix2 i⟩
  rw [table_apply, Cert.Rgcn.Lib.gather_rows_apply (by decide) dK wfK hdK T idx r (half k),
    Cert.Rgcn.Lib.gather_rows_apply (by decide) gather_S4096x4096_S4096x1_S4096x4096_1_0_n_n_0_1_14096
      Facts₀.gather_S4096x4096_S4096x1_S4096x4096_1_0_n_n_0_1_14096_wf rfl (val_main_v18 (F := F) T mins ranges) idx r k,
    table_apply]

end Cert.ReferenceIdeal.Table

end
-- ==== Proof.Bridge.lean ====
/-
  The kernel's result and the reference's result are one function of the arguments.

  Entry `(b, s, o)` of the kernel's result is entry `(4096 · b + s, o)` of the product array (the last reshape keeps
  the row-major position), that is Σ_k x2d[4096 · b + s, k] · W[o, k] with x2d[4096 · b + s, k] = x[b, s, k] (the first
  reshape) and W the dequantized table of the looked-up packed rows. The reference's entry is Σ_k x[b, s, k] · W'[o, k]
  with W' the looked-up rows of the dequantized table. W = W', since dequantizing is row by row.
-/
import proofs.«404074_j41085657154123_3_alg».proof.Proof.KernelRun
import proofs.«404074_j41085657154123_3_alg».proof.Proof.Table

noncomputable section

open Idealize.ShloMosaic Idealize.ShloMosaic.ValueIdx

namespace Cert.Linear

open Cert.ReferenceIdeal.Read

theorem result_eq (x0 : FVec Ideal Cert.KernelIdeal.S4x4096x4096 .f32) (x1 : IVec Cert.KernelIdeal.S4096x2048 32)
    (x2 x3 : FVec Ideal Cert.KernelIdeal.S4096 .f32) (x4 : IVec Cert.KernelIdeal.S4096 32) :
    Cert.KernelIdeal.Run.result x0 x1 x2 x3 x4 = val_main_v26 (F := Ideal) x0 x1 x2 x3 x4 := by
  funext i
  obtain ⟨b, s, o, rfl⟩ : ∃ (b : Fin 4) (s o : Fin 4096), i = ix3 b s o := ⟨i 0, i 1, i 2, eq_ix3 i⟩
  have hb := b.isLt
  have hs := s.isLt
  have ho := o.isLt
  -- the merged row
  obtain ⟨r, hr⟩ : ∃ r : Fin 16384, r.val = b.val * 4096 + s.val := ⟨⟨b.val * 4096 + s.val, by omega⟩, rfl⟩
  unfold Cert.KernelIdeal.Run.result
  rw [shapeCast_apply _ Cert.KernelIdeal.Facts₀.shapeCasts_S16384x4096_S4x4096x4096 (ix3 b s o) (ix2 r o)
    (by rw [Shape.rowMajor_val_two, Shape.rowMajor_val_three]; show r.val * 4096 + o.val = (b.val * 4096 + s.val) * 4096 + o.val; rw [hr])]
  rw [val_main_v26_apply]
  unfold Cert.KernelIdeal.Arr.linear
  refine Finset.sum_congr rfl fun k _ => ?_
  have el : shapeCast Cert.KernelIdeal.S16384x4096 x0 Cert.KernelIdeal.Facts₀.shapeCasts_S4x4096x4096_S16384x4096 (ix2 r k)
      = x0 (lidx_main_v26 (ix3 b s o) k) := by
    rw [shapeCast_apply x0 Cert.KernelIdeal.Facts₀.shapeCasts_S4x4096x4096_S16384x4096 (ix2 r k) (ix3 b s k)
      (by rw [Shape.rowMajor_val_two, Shape.rowMajor_val_three]; show (b.val * 4096 + s.val) * 4096 + k.val = r.val * 4096 + k.val; rw [hr])]
    refine congrArg x0 (funext fun a => Fin.ext ?_)
    match a with
    | ⟨0, _⟩ => rfl
    | ⟨1, _⟩ => rfl
    | ⟨2, _⟩ => rfl
  have er : Cert.KernelIdeal.Run.weights x1 x2 x3 x4 (ix2 o k) = val_main_v25 (F := Ideal) x1 x2 x3 x4 (ridx_main_v26 (ix3 b s o) k) := by
    have e : ridx_main_v26 (ix3 b s o) k = ix2 o k := funext fun a => Fin.ext (by
      match a with
      | ⟨0, _⟩ => rfl
      | ⟨1, _⟩ => rfl)
    rw [e]
    unfold Cert.KernelIdeal.Run.weights val_main_v25
    show val_main_v18 (F := Ideal) (Host.gather Cert.KernelIdeal.gather_S4096x2048_S4096x1_S4096x2048_1_0_n_n_0_1_12048 x1 (val_main_v24 (F := Ideal) x4)) x2 x3 (ix2 o k) = _
    rw [Cert.ReferenceIdeal.Table.table_gather Cert.KernelIdeal.gather_S4096x2048_S4096x1_S4096x2048_1_0_n_n_0_1_12048 Cert.KernelIdeal.Facts₀.gather_S4096x2048_S4096x1_S4096x2048_1_0_n_n_0_1_12048_wf rfl]
  show shapeCast Cert.KernelIdeal.S16384x4096 x0 Cert.KernelIdeal.Facts₀.shapeCasts_S4x4096x4096_S16384x4096 (ix2 r k)
      * Cert.KernelIdeal.Run.weights x1 x2 x3 x4 (ix2 o k) = _
  rw [el, er]

end Cert.Linear

end
-- ==== Proof.lean ====
/-
  A linear layer with 4-bit packed weights: out[b, s, o] = Σ_k x[b, s, k] · W[idx[o], k], over the exact values.

  The weight table is stored as packed words, two 4-bit weights a word; weight `(r, k)` is the word at `(r, k / 2)`'s
  nibble (the high one for even `k`) over fifteen, times the column's range, plus the column's minimum. The rows are
  looked up through `idx` (negative numbers counted from the end, then clamped into the table, the same on both sides).

  The reference dequantizes the whole table, looks the rows up, and contracts x with them in one product. The kernel
  looks the PACKED rows up first and dequantizes those (the same table, because dequantizing reads one word of the same
  row: Proof/Table.lean), rounds them to a shorter float format (the identity at the exact values), and computes the
  product block by block: output blocks of 1024 × 2048 over a (16, 2, 4) grid, the contraction in four runs of 1024
  accumulated into the resident output block, zeroed at the first run (Proof/KernelFold.lean, Proof/KernelBlock.lean).
  The four runs' sums added in order are the sum over all 4096 columns (Proof/SumRuns.lean: addition of extended reals
  is commutative and associative, so no finiteness of the inputs is used anywhere), the blocks tile the array
  (Proof/KernelArray.lean), and the two reshapes around the region keep row-major positions (Proof/Bridge.lean).

  The three frames: the two kernel programs' are the generated frame proofs; the reference's is its generated run with
  the result dropped. No operation was rewritten for the idealized kernel, so `preserves` has nothing to state.
-/
import proofs.«404074_j41085657154123_3_alg».proof.Defs
import proofs.«404074_j41085657154123_3_alg».proof.Proof.Gen.Kernel
import proofs.«404074_j41085657154123_3_alg».proof.Proof.Gen.Kernel.Frame
import proofs.«404074_j41085657154123_3_alg».proof.Proof.Gen.KernelIdeal
import proofs.«404074_j41085657154123_3_alg».proof.Proof.Gen.KernelIdeal.Frame
import proofs.«404074_j41085657154123_3_alg».proof.Proof.Gen.ReferenceIdeal
import proofs.«404074_j41085657154123_3_alg».proof.Proof.Gen.Pre_finite_inputs
import proofs.«404074_j41085657154123_3_alg».proof.Proof.Gen.ReferenceIdeal.Run
import proofs.«404074_j41085657154123_3_alg».proof.Proof.Gen.ReferenceIdeal.Read
import proofs.«404074_j41085657154123_3_alg».proof.Proof.KernelRun
import proofs.«404074_j41085657154123_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at one function of arguments that agree: the kernel's run read back
    (`KernelIdeal.Run.run`), the reference's generated run, and `Linear.result_eq` between the two terms. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2.1,
    (hagree c).2.2.2.2]
  exact (Cert.Linear.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
